-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x4096 : Shape := ⟨3, ![64, 128, 4096]⟩
abbrev S8x256x128 : Shape := ⟨3, ![8, 256, 128]⟩
abbrev S8x256 : Shape := ⟨2, ![8, 256]⟩
abbrev S64 : Shape := ⟨1, ![64]⟩
abbrev S_ : Shape := ⟨0, ![]⟩

class Facts : Prop where
  bcast_S_S64x128x4096 : S_.BroadcastsInDim S64x128x4096 (![] : Fin 0 → Fin S64x128x4096.rank)
  reducesTo_S64x128x4096_S_d0_1_2 : S64x128x4096.ReducesTo [0, 1, 2] S_
  h_S_ : 0 < S_.numel
  bcast_S_S8x256x128 : S_.BroadcastsInDim S8x256x128 (![] : Fin 0 → Fin S8x256x128.rank)
  reducesTo_S8x256x128_S_d0_1_2 : S8x256x128.ReducesTo [0, 1, 2] S_
  bcast_S_S8x256 : S_.BroadcastsInDim S8x256 (![] : Fin 0 → Fin S8x256.rank)
  reducesTo_S8x256_S_d0_1 : S8x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg3 : IVec S64 32) (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  let main_c_6 : IVec S_ 32 := constantI S_ 32 8#32
  let main_v18 : IVec S64 32 := broadcastInDim S64 ![] bcast_S_S64 main_c_6
  let main_v19 : IVec S64 1 := cmpi .slt main_arg3 main_v18
  let main_c_7 : IVec S_ 1 := constantI S_ 1 1#1
  let main_v20 : IVec S_ 1 := (fun x v => Host.reduce IntOp.andi x v reducesTo_S64_S_d0 h_S_) main_v19 main_c_7
  let main_v21 : IVec S_ 1 := andi main_v17 main_v20
  main_v21

def fn {F : FTy → Type} [FloatOps F] (main_arg0 : FVec F S64x128x4096 .f32) (main_arg1 : FVec F S8x256x128 .f32) (main_arg2 : FVec F S8x256 .f32) (main_arg3 : IVec S64 32) (main_arg4 : IVec S64 32) (main_arg5 : IVec S64 32) : IVec S_ 1 :=
  let main_v0 : FVec F S64x128x4096 .f32 := Host.absf main_arg0
  let main_cst : FVec F S_ .f32 := constant S_ .f32 0x7F800000#32
  let main_v1 : FVec F S64x128x4096 .f32 := broadcastInDim S64x128x4096 ![] bcast_S_S64x128x4096 main_cst
  let main_v2 : IVec S64x128x4096 1 := cmpf .olt main_v0 main_v1
  let main_c : IVec S_ 1 := constantI S_ 1 1#1
  let main_v3 : IVec S_ 1 := (fun x v => Host.reduce IntOp.andi x v reducesTo_S64x128x4096_S_d0_1_2 h_S_) main_v2 main_c
  let main_v4 : FVec F S8x256x128 .f32 := Host.absf main_arg1
  let main_cst_0 : FVec F S_ .f32 := constant S_ .f32 0x7F800000#32
  let main_v5 : FVec F S8x256x128 .f32 := broadcastInDim S8x256x128 ![] bcast_S_S8x256x128 main_cst_0
  let main_v6 : IVec S8x256x128 1 := cmpf .olt main_v4 main_v5
  let main_c_1 : IVec S_ 1 := constantI S_ 1 1#1
  let main_v7 : IVec S_ 1 := (fun x v => Host.reduce IntOp.andi x v reducesTo_S8x256x128_S_d0_1_2 h_S_) main_v6 main_c_1
  let main_v8 : IVec S_ 1 := andi main_v3 main_v7
  let main_v9 : FVec F S8x256 .f32 := Host.absf main_arg2
  let main_cst_2 : FVec F S_ .f32 := constant S_ .f32 0x7F800000#32
  let main_v10 : FVec F S8x256 .f32 := broadcastInDim S8x256 ![] bcast_S_S8x256 main_cst_2
  let main_v11 : IVec S8x256 1 := cmpf .olt main_v9 main_v10
  let main_c_3 : IVec S_ 1 := constantI S_ 1 1#1
  let main_v12 : IVec S_ 1 := (fun x v => Host.reduce IntOp.andi x v reducesTo_S8x256_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg3 main_v14
  let main_c_5 : IVec S_ 1 := constantI S_ 1 1#1
  fn_part1 (F := F) main_arg3 main_v13 main_v15 main_c_5
-- ==== Kernel.lean ====
abbrev S64x128x4096 : Shape := ⟨3, ![64, 128, 4096]⟩
abbrev S8x256x128 : Shape := ⟨3, ![8, 256, 128]⟩
abbrev S8x256 : Shape := ⟨2, ![8, 256]⟩
abbrev S64 : Shape := ⟨1, ![64]⟩
abbrev S64x256x4096 : Shape := ⟨3, ![64, 256, 4096]⟩
abbrev S1x128x4096 : Shape := ⟨3, ![1, 128, 4096]⟩
abbrev S1x256x4096 : Shape := ⟨3, ![1, 256, 4096]⟩
abbrev S1 : Shape := ⟨1, ![1]⟩
abbrev S1x256x128 : Shape := ⟨3, ![1, 256, 128]⟩
abbrev S256x128 : Shape := ⟨2, ![256, 128]⟩
abbrev S1x256 : Shape := ⟨2, ![1, 256]⟩
abbrev S256 : Shape := ⟨1, ![256]⟩
abbrev S128x4096 : Shape := ⟨2, ![128, 4096]⟩
abbrev S256x4096 : Shape := ⟨2, ![256, 4096]⟩
abbrev S256x1 : Shape := ⟨2, ![256, 1]⟩

abbrev nBuf : Space → Nat
  | .hbm => 5
  | .vmem => 6
  | .smem => 2
  | _ => 0

abbrev bufTy : (tb : Table) → Fin (tcTables nBuf tb) → BufTy
  | .hbm, ⟨0, _⟩ => ⟨S64x128x4096, .f32⟩
  | .hbm, ⟨1, _⟩ => ⟨S8x256x128, .f32⟩
  | .hbm, ⟨2, _⟩ => ⟨S8x256, .f32⟩
  | .hbm, ⟨3, _⟩ => ⟨S64, .i32⟩
  | .hbm, ⟨4, _⟩ => ⟨S64x256x4096, .f32⟩
  | .local _ .vmem, ⟨0, _⟩ => ⟨S1x128x4096, .f32⟩
  | .local _ .vmem, ⟨1, _⟩ => ⟨S1x128x4096, .f32⟩
  | .local _ .vmem, ⟨2, _⟩ => ⟨S8x256x128, .f32⟩
  | .local _ .vmem, ⟨3, _⟩ => ⟨S8x256, .f32⟩
  | .local _ .vmem, ⟨4, _⟩ => ⟨S1x256x4096, .f32⟩
  | .local _ .vmem, ⟨5, _⟩ => ⟨S1x256x4096, .f32⟩
  | .local _ .smem, ⟨0, _⟩ => ⟨S64, .i32⟩
  | .local _ .smem, ⟨1, _⟩ => ⟨S64, .i32⟩
  | _, _ => ⟨S64x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_arg3 : Ref sig .tc := ⟨.smem, 0, rfl⟩
abbrev main_arg5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_arg3.idx, main_arg5.idx], fun | 0 => main_arg3.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 3 → Nat :=
  let v2 : Index := Scalar.indexCast v1
  let c0 : Index := 0#32
  let c0_0 : Index := 0#32
  ![v2.toNat, 0, 0]

def k0_off3 (v1 : BitVec 32) : Fin 2 → Nat :=
  let v5 : Index := Scalar.indexCast v1
  let c0_1 : Index := 0#32
  ![v5.toNat, 0]

def k0_chk1 (v1 : BitVec 32) : Prop :=
  (∀ a, (k0_off2 v1) a + S1x256x128.size a ≤ S8x256x128.size a) ∧
  (∀ a, (k0_off3 v1) a + S1x256.size a ≤ S8x256.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x256x128.size a ≤ S8x256x128.size a := fun v1 k0_hw1 => k0_hw1.1
theorem k0_off3_inb : ∀ (v1 : BitVec 32) (k0_hw1 : k0_chk1 v1), ∀ a, (k0_off3 v1) a + S1x256.size a ≤ S8x256.size a := fun v1 k0_hw1 => k0_hw1.2

def k0_off4 (i : grid0.Coords) : Fin 1 → Nat :=
  let arg0 : BitVec 32 := BitVec.ofNat 32 (i 0).val
  let v14 : Index := Scalar.indexCast arg0
  ![v14.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  numel1_S1 : S1.numel = 1
  h_S1x256x128 : 0 < S1x256x128.numel
  shapeCasts_S1x256x128_S256x128 : S1x256x128.ShapeCasts S256x128
  h_S1x256 : 0 < S1x256.numel
  shapeCasts_S1x256_S256 : S1x256.ShapeCasts S256
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S256_S256x1 : S256.ShapeCasts S256x1
  broadcasts_S256x1_S256x4096 : S256x1.Broadcasts S256x4096
  iota_S256x4096_d1_w32 : S256x4096.Iotas .tc 32 [1]
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  dot_S256x128_S128x4096_S256x4096_1_0_0_1_n_n_wf : DotDims.WF S256x128 S128x4096 S256x4096 [1] [0] [0] [1] [] []
  hrank0 : 0 < grid0.rank
  k0_off1_inb : ∀ i : grid0.Coords, ∀ a, (k0_off1 i) a + S1.size a ≤ S64.size a
  k0_off4_inb : ∀ i : grid0.Coords, ∀ a, (k0_off4 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S64x128x4096.size a
  hwx0_0 : ∀ i : grid0.Coords, EltTy.bits .f32 = 32 ∨ (Rect.block (s := S64x128x4096) S1x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256x128.size a ≤ S8x256x128.size a
  hwx0_1 : ∀ i : grid0.Coords, EltTy.bits .f32 = 32 ∨ (Rect.block (s := S8x256x128) S8x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S8x256.size a
  hwx0_2 : ∀ i : grid0.Coords, EltTy.bits .f32 = 32 ∨ (Rect.block (s := S8x256) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S64x256x4096.size a
  hwx0_3 : ∀ i : grid0.Coords, EltTy.bits .f32 = 32 ∨ (Rect.block (s := S64x256x4096) S1x256x4096.size (cc0_transform_3 i) (hinb0_3 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev spec0_0 : Pipeline.WinSpec sig grid0.rank :=
  Pipeline.WinSpec.ofSpec (Memref.whole main_arg0) S1x128x4096.size reads0_0 false false 2 stage0_0 sem0_0 nbuf0_0 hstage0_0

abbrev spec0_1 : Pipeline.WinSpec sig grid0.rank :=
  Pipeline.WinSpec.ofSpec (Memref.whole main_arg1) S8x256x128.size reads0_1 false true 1 stage0_1 sem0_1 nbuf0_1 hstage0_1

abbrev spec0_2 : Pipeline.WinSpec sig grid0.rank :=
  Pipeline.WinSpec.ofSpec (Memref.whole main_arg2) S8x256.size reads0_2 false true 1 stage0_2 sem0_2 nbuf0_2 hstage0_2

abbrev spec0_3 : Pipeline.WinSpec sig grid0.rank :=
  Pipeline.WinSpec.ofSpec (Memref.whole main_v0) S1x256x4096.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x128x4096 : Shape := ⟨3, ![64, 128, 4096]⟩
abbrev S8x256x128 : Shape := ⟨3, ![8, 256, 128]⟩
abbrev S8x256 : Shape := ⟨2, ![8, 256]⟩
abbrev S64 : Shape := ⟨1, ![64]⟩
abbrev S_ : Shape := ⟨0, ![]⟩
abbrev S64x1 : Shape := ⟨2, ![64, 1]⟩
abbrev S64x256x128 : Shape := ⟨3, ![64, 256, 128]⟩
abbrev S64x256 : Shape := ⟨2, ![64, 256]⟩
abbrev S64x256x4096 : Shape := ⟨3, ![64, 256, 4096]⟩
abbrev S64x256x1 : Shape := ⟨3, ![64, 256, 1]⟩
abbrev S4096 : Shape := ⟨1, ![4096]⟩
abbrev S1x1x4096 : Shape := ⟨3, ![1, 1, 4096]⟩
abbrev S64x1x1 : Shape := ⟨3, ![64, 1, 1]⟩
abbrev S64x1x4096 : Shape := ⟨3, ![64, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S64x128x4096, .f32⟩
  | .hbm, ⟨1, _⟩ => ⟨S8x256x128, .f32⟩
  | .hbm, ⟨2, _⟩ => ⟨S8x256, .f32⟩
  | .hbm, ⟨3, _⟩ => ⟨S64, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i1⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64x1, .i32⟩
  | .hbm, ⟨14, _⟩ => ⟨S64x256x128, .f32⟩
  | .hbm, ⟨15, _⟩ => ⟨S_, .i32⟩
  | .hbm, ⟨16, _⟩ => ⟨S64, .i32⟩
  | .hbm, ⟨17, _⟩ => ⟨S64, .i1⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S64x1, .i32⟩
  | .hbm, ⟨23, _⟩ => ⟨S64x256, .f32⟩
  | .hbm, ⟨24, _⟩ => ⟨S64x256x4096, .f32⟩
  | .hbm, ⟨25, _⟩ => ⟨S64x256x1, .f32⟩
  | .hbm, ⟨26, _⟩ => ⟨S64x256x4096, .f32⟩
  | .hbm, ⟨27, _⟩ => ⟨S64x256x4096, .f32⟩
  | .hbm, ⟨28, _⟩ => ⟨S4096, .i32⟩
  | .hbm, ⟨29, _⟩ => ⟨S1x1x4096, .i32⟩
  | .hbm, ⟨30, _⟩ => ⟨S64x1x1, .i32⟩
  | .hbm, ⟨31, _⟩ => ⟨S64x1x4096, .i32⟩
  | .hbm, ⟨32, _⟩ => ⟨S64x1x4096, .i32⟩
  | .hbm, ⟨33, _⟩ => ⟨S64x1x4096, .i1⟩
  | .hbm, ⟨34, _⟩ => ⟨S64x1x4096, .f32⟩
  | .hbm, ⟨35, _⟩ => ⟨S64x256x4096, .f32⟩
  | .hbm, ⟨36, _⟩ => ⟨S64x256x4096, .f32⟩
  | _, _ => ⟨S64x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x256_S64x256x1_0_1 : S64x256.BroadcastsInDim S64x256x1 (![0, 1] : Fin 2 → Fin S64x256x1.rank)
  bcast_S64x256x1_S64x256x4096_0_1_2 : S64x256x1.BroadcastsInDim S64x256x4096 (![0, 1, 2] : Fin 3 → Fin S64x256x4096.rank)
  bcast_S4096_S1x1x4096_2 : S4096.BroadcastsInDim S1x1x4096 (![2] : Fin 1 → Fin S1x1x4096.rank)
  bcast_S64_S64x1x1_0 : S64.BroadcastsInDim S64x1x1 (![0] : Fin 1 → Fin S64x1x1.rank)
  bcast_S1x1x4096_S64x1x4096_0_1_2 : S1x1x4096.BroadcastsInDim S64x1x4096 (![0, 1, 2] : Fin 3 → Fin S64x1x4096.rank)
  bcast_S64x1x1_S64x1x4096_0_1_2 : S64x1x1.BroadcastsInDim S64x1x4096 (![0, 1, 2] : Fin 3 → Fin S64x1x4096.rank)
  bcast_S64x1x4096_S64x256x4096_0_1_2 : S64x1x4096.BroadcastsInDim S64x256x4096 (![0, 1, 2] : Fin 3 → Fin S64x256x4096.rank)
  gather_S8x256x128_S64x1_S64x256x128_12_0_n_n_0_1_1256128_wf : GatherDims.WF S8x256x128 S64x1 S64x256x128 [1, 2] [0] [] [0] [] 1 ![1, 256, 128]
  gather_S8x256_S64x1_S64x256_1_0_n_n_0_1_1256_wf : GatherDims.WF S8x256 S64x1 S64x256 [1] [0] [] [0] [] 1 ![1, 256]
  dot_S64x256x128_S64x128x4096_S64x256x4096_2_1_1_2_0_0_wf : DotDims.WF S64x256x128 S64x128x4096 S64x256x4096 [2] [1] [1] [2] [0] [0]

variable [Facts₀]

def gather_S8x256x128_S64x1_S64x256x128_12_0_n_n_0_1_1256128 : GatherDims S8x256x128 S64x1 S64x256x128 where
  offsetDims := [1, 2]
  collapsedSliceDims := [0]
  operandBatchingDims := []
  startIndicesBatchingDims := []
  startIndexMap := [0]
  indexVectorDim := 1
  sliceSizes := ![1, 256, 128]
  wf := gather_S8x256x128_S64x1_S64x256x128_12_0_n_n_0_1_1256128_wf
def gather_S8x256_S64x1_S64x256_1_0_n_n_0_1_1256 : GatherDims S8x256 S64x1 S64x256 where
  offsetDims := [1]
  collapsedSliceDims := [0]
  operandBatchingDims := []
  startIndicesBatchingDims := []
  startIndexMap := [0]
  indexVectorDim := 1
  sliceSizes := ![1, 256]
  wf := gather_S8x256_S64x1_S64x256_1_0_n_n_0_1_1256_wf
def dot_S64x256x128_S64x128x4096_S64x256x4096_2_1_1_2_0_0 : DotDims S64x256x128 S64x128x4096 S64x256x4096 where
  lhsContracting := [2]
  rhsContracting := [1]
  lhsNonContracting := [1]
  rhsNonContracting := [2]
  lhsBatch := [0]
  rhsBatch := [0]
  wf := dot_S64x256x128_S64x128x4096_S64x256x4096_2_1_1_2_0_0_wf

class Facts : Prop extends Facts₀ where

variable [Facts]
-- ==== Proof.SessionRange.lean ====
/-
  What the precondition says of the session words.

  The precondition is the conjunction of the three finiteness tests of the float inputs with two tests of the
  session words, each an all-reduction by "and" of an elementwise signed comparison: every word is at least 0, and
  every word is below 8. Read back at one word: its unsigned value is below 8, so it names a row of the 8-row
  session tables. Stated at any float instance; the finiteness conjuncts are not opened.
-/
import proofs.«417523_j47356309406352_1_alg».proof.Pre_finite_inputs
import Idealize.ShloMosaic.Lib.ReduceAll
import Idealize.ShloMosaic.Lib.ValueIdx
import Idealize.ShloMosaic.Lib.StableHlo.Predicate

noncomputable section

namespace Cert.Projector

open Idealize.ShloMosaic Idealize.ShloMosaic.ValueIdx

/-- A word that is at least 0 and below 8, both read signed, is below 8 read unsigned. -/
theorem toNat_lt_eight (w : BitVec 32) (h0 : IntOp.cmpi .sge w (0#32) = 1#1) (h8 : IntOp.cmpi .slt w (8#32) = 1#1) :
    w.toNat < 8 := by
  unfold IntOp.cmpi at h0 h8
  rw [StableHlo.Predicate.ofBool_eq_one_iff] at h0 h8
  simp only [BitVec.slt, BitVec.sle, decide_eq_true_eq] at h0 h8
  have h32 := w.isLt
  unfold BitVec.toInt at h0 h8
  split at h8 <;> simp at h0 h8 <;> omega

instance : Subsingleton Cert.Pre_finite_inputs.S_.Idx := ⟨fun a b => funext fun d => d.elim0⟩

variable {F : FTy → Type} [FloatOps F] [hF : Cert.Pre_finite_inputs.Facts]

open Cert.Pre_finite_inputs in
/-- Under the precondition every session word is below 8. -/
theorem sess_lt (x : FVec F S64x128x4096 .f32) (W : FVec F S8x256x128 .f32) (b : FVec F S8x256 .f32)
    (sess cnt len : IVec S64 32)
    (h : Cert.Pre_finite_inputs.fn (F := F) x W b sess cnt len = fun _ => 1#1) (k : S64.Idx) :
    (sess k).toNat < 8 := by
  have e := congrFun h ValueIdx.ix0
  unfold Cert.Pre_finite_inputs.fn at e
  dsimp only [Cert.Pre_finite_inputs.fn_part1] at e
  obtain ⟨e1, e8⟩ := IntOp.andi_eq_one.1 e
  obtain ⟨-, e0⟩ := IntOp.andi_eq_one.1 e1
  have g0 := Host.reduce_andi_all _ _ _ _ _ e0 k
  have g8 := Host.reduce_andi_all _ _ _ _ _ e8 k
  refine toNat_lt_eight _ ?_ ?_
  · have hb : broadcastInDim S64 ![] Facts.bcast_S_S64 (constantI S_ 32 0#32) k = 0#32 :=
      StableHlo.Predicate.bcast_scalar _ Facts.h_S_ _ k
    have : IntOp.cmpi .sge (sess k) (broadcastInDim S64 ![] Facts.bcast_S_S64 (constantI S_ 32 0#32) k) = 1#1 := g0
    rwa [hb] at this
  · have hb : broadcastInDim S64 ![] Facts.bcast_S_S64 (constantI S_ 32 8#32) k = 8#32 :=
      StableHlo.Predicate.bcast_scalar _ Facts.h_S_ _ k
    have : IntOp.cmpi .slt (sess k) (broadcastInDim S64 ![] Facts.bcast_S_S64 (constantI S_ 32 8#32) k) = 1#1 := g8
    rwa [hb] at this

end Cert.Projector

end
-- ==== Proof.SessionHypsBits.lean ====
/-
  The side condition the body assumes, from the precondition.

  At grid point t the body reads word t of the session table and assumes that the row it names lies inside the
  8-row weight and bias tables. The session table is the whole argument array, so the word read is sess t; the
  precondition bounds every session word below 8 (unsigned), which is exactly the assumed range. No index map of the
  call reads a table, so the launch's own side condition on the tables is trivial.
-/
import proofs.«417523_j47356309406352_1_alg».proof.Defs
import proofs.«417523_j47356309406352_1_alg».proof.Proof.Gen.Kernel.Frame
import proofs.«417523_j47356309406352_1_alg».proof.Proof.Gen.Pre_finite_inputs
import proofs.«417523_j47356309406352_1_alg».proof.Proof.SessionRange

set_option maxRecDepth 16384

noncomputable section

namespace Cert.Kernel.SessionHyps

open Cert.Kernel Cert.Kernel.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The offset the body reads the session table at, at grid point t, is t. -/
theorem sess_off (t : Fin grid0.N) : k0_off1 (grid0.coords t) 0 = t.val := by
  rw [k0_off1_eq]
  revert t
  decide +kernel

/-- A one-word load of the session table at offset k reads word k of its contents. -/
theorem sess_word (c : Dev nD) (f : TbBuf0 (F := F) c tbM0_0) (off : Fin 1 → Nat) (k : Fin 64) (hoff : off 0 = k.val)
    (inb : ∀ a, off a + S1.size a ≤ S64.size a) (h1 : 0 < S1.numel) :
    tbM0_0.view.readAt (Elt F) (Rect.unit (s := S64) off S1.size inb).toLoadRect f (Shape.Idx.first h1) = f (ix1 k) := by
  rw [View.readAt_apply, View.read_apply]
  simp only [cast_eq]
  congr 1
  funext a
  apply Fin.ext
  fin_cases a
  show off 0 + 1 * (Shape.Idx.first h1 (0 : Fin 1)).val = k.val
  have : (Shape.Idx.first h1 (0 : Fin 1)).val = 0 := by
    have := (Shape.Idx.first h1 (0 : Fin 1)).isLt
    have e : S1.size (0 : Fin 1) = 1 := by decide
    omega
  rw [this, hoff]
  omega

/-- A word below 8 names a row inside the weight table and inside the bias table. -/
theorem chk_of_lt (w : BitVec 32) (hw : w.toNat < 8) : k0_chk1 w := by
  have e : (Scalar.indexCast w).toNat = w.toNat := rfl
  refine ⟨fun a => ?_, fun a => ?_⟩
  · fin_cases a <;> simp [k0_off2, e, S1x256x128, S8x256x128] <;> omega
  · fin_cases a <;> simp [k0_off3, e, S1x256, S8x256] <;> omega

/-- No index map reads a table: the launch's side condition holds of any tables. -/
theorem ok_of_pre : Ok m := trivial

/-- Under the precondition the body's assumed range holds at every grid point. -/
theorem hyps_of_pre
    (h : ∀ c : Dev nD, Cert.Pre_finite_inputs.fn (F := F) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) = fun _ => 1#1)
    (hO : Ok m) : Hyps m hO := by
  refine Hyps.of fun c t => ?_
  show k0_chk1 _
  rw [sess_word c (tbl m 0) _ ⟨t.val, t.isLt⟩ (sess_off t)]
  exact chk_of_lt _ (Cert.Projector.sess_lt _ _ _ _ _ _ (h 0) _)

end Cert.Kernel.SessionHyps

end
-- ==== Proof.SessionHypsIdeal.lean ====
/-
  The side condition the body assumes, from the precondition.

  At grid point t the body reads word t of the session table and assumes that the row it names lies inside the
  8-row weight and bias tables. The session table is the whole argument array, so the word read is sess t; the
  precondition bounds every session word below 8 (unsigned), which is exactly the assumed range. No index map of the
  call reads a table, so the launch's own side condition on the tables is trivial.
-/
import proofs.«417523_j47356309406352_1_alg».proof.Defs
import proofs.«417523_j47356309406352_1_alg».proof.Proof.Gen.KernelIdeal.Frame
import proofs.«417523_j47356309406352_1_alg».proof.Proof.Gen.Pre_finite_inputs
import proofs.«417523_j47356309406352_1_alg».proof.Proof.SessionRange

set_option maxRecDepth 16384

noncomputable section

namespace Cert.KernelIdeal.SessionHyps

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The offset the body reads the session table at, at grid point t, is t. -/
theorem sess_off (t : Fin grid0.N) : k0_off1 (grid0.coords t) 0 = t.val := by
  rw [k0_off1_eq]
  revert t
  decide +kernel

/-- A one-word load of the session table at offset k reads word k of its contents. -/
theorem sess_word (c : Dev nD) (f : TbBuf0 (F := F) c tbM0_0) (off : Fin 1 → Nat) (k : Fin 64) (hoff : off 0 = k.val)
    (inb : ∀ a, off a + S1.size a ≤ S64.size a) (h1 : 0 < S1.numel) :
    tbM0_0.view.readAt (Elt F) (Rect.unit (s := S64) off S1.size inb).toLoadRect f (Shape.Idx.first h1) = f (ix1 k) := by
  rw [View.readAt_apply, View.read_apply]
  simp only [cast_eq]
  congr 1
  funext a
  apply Fin.ext
  fin_cases a
  show off 0 + 1 * (Shape.Idx.first h1 (0 : Fin 1)).val = k.val
  have : (Shape.Idx.first h1 (0 : Fin 1)).val = 0 := by
    have := (Shape.Idx.first h1 (0 : Fin 1)).isLt
    have e : S1.size (0 : Fin 1) = 1 := by decide
    omega
  rw [this, hoff]
  omega

/-- A word below 8 names a row inside the weight table and inside the bias table. -/
theorem chk_of_lt (w : BitVec 32) (hw : w.toNat < 8) : k0_chk1 w := by
  have e : (Scalar.indexCast w).toNat = w.toNat := rfl
  refine ⟨fun a => ?_, fun a => ?_⟩
  · fin_cases a <;> simp [k0_off2, e, S1x256x128, S8x256x128] <;> omega
  · fin_cases a <;> simp [k0_off3, e, S1x256, S8x256] <;> omega

/-- No index map reads a table: the launch's side condition holds of any tables. -/
theorem ok_of_pre : Ok m := trivial

/-- Under the precondition the body's assumed range holds at every grid point. -/
theorem hyps_of_pre
    (h : ∀ c : Dev nD, Cert.Pre_finite_inputs.fn (F := F) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) = fun _ => 1#1)
    (hO : Ok m) : Hyps m hO := by
  refine Hyps.of fun c t => ?_
  show k0_chk1 _
  rw [sess_word c (tbl m 0) _ ⟨t.val, t.isLt⟩ (sess_off t)]
  exact chk_of_lt _ (Cert.Projector.sess_lt _ _ _ _ _ _ (h 0) _)

end Cert.KernelIdeal.SessionHyps

end
-- ==== Proof.Spec.lean ====
/-
  The session projector, as one function of the argument arrays.

  For sample n, source row r and time step j the result is

      out (n, r, j) = Σ_κ W (σ n, r, κ) · x (n, κ, j) + bias (σ n, r)     when j < len n (signed),
      out (n, r, j) = 0                                                   otherwise,

  where σ n is the row of the 8-row session tables that the word sess n names. Both programs compute this: one
  masks by a selection against zero, the other by a product with the mask read as 0 or 1; over the extended reals
  a · 1 = a and a · 0 = 0 for every a, so no finiteness is needed.
-/
import Idealize.ShloMosaic.PureOps.Ideal
import Idealize.ShloMosaic.PureOps.Ideal.Laws
import Idealize.ShloMosaic.Lib.ValueIdx

noncomputable section

open scoped BigOperators

namespace Cert.Projector

open Idealize.ShloMosaic Idealize.ShloMosaic.ValueIdx

/-- The row of an 8-row table a 32-bit word names: the word read signed, clamped into [0, 7]. -/
def row (w : BitVec 32) : Fin 8 := ⟨min w.toInt.toNat 7, by omega⟩

/-- A word below 8 (unsigned) names the row of its own value. -/
theorem row_val (w : BitVec 32) (h : w.toNat < 8) : (row w).val = w.toNat := by
  have hi : w.toInt = (w.toNat : Int) := by
    rw [BitVec.toInt_eq_toNat_cond]
    split
    · rfl
    · omega
  show min w.toInt.toNat 7 = w.toNat
  rw [hi, Int.toNat_natCast]
  omega

/-- A word below 8 (unsigned) is not negative (signed). -/
theorem not_neg (w : BitVec 32) (h : w.toNat < 8) : IntOp.cmpi .slt w (0#32) = 0#1 := by
  unfold IntOp.cmpi
  have hi : w.toInt = (w.toNat : Int) := by
    rw [BitVec.toInt_eq_toNat_cond]
    split
    · rfl
    · omega
  have : w.slt (0#32) = false := by
    simp only [BitVec.slt, hi, BitVec.toInt_zero, decide_eq_false_iff_not, not_lt]
    omega
  simp only [this]
  rfl

/-- THE PROJECTOR: the masked, biased product with the session's weights, index by index. -/
def proj (x : (⟨3, ![64, 128, 4096]⟩ : Shape).Idx → EReal) (W : (⟨3, ![8, 256, 128]⟩ : Shape).Idx → EReal)
    (bias : (⟨2, ![8, 256]⟩ : Shape).Idx → EReal) (sess len : (⟨1, ![64]⟩ : Shape).Idx → BitVec 32) :
    (⟨3, ![64, 256, 4096]⟩ : Shape).Idx → EReal :=
  fun i => Scalar.select (IntOp.cmpi .slt (BitVec.ofNat 32 (i 2).val) (len (ix1 (i 0))))
    ((∑ κ : Fin 128, W (ix3 (row (sess (ix1 (i 0)))) (i 1) κ) * x (ix3 (i 0) κ (i 2)))
      + bias (ix2 (row (sess (ix1 (i 0)))) (i 1)))
    0

/-- MASKING BY A PRODUCT IS MASKING BY A SELECTION: a one-bit mask read as the number 0 or 1 multiplies a to a or
    to 0. -/
theorem mul_mask (a : EReal) (c : BitVec 1) : a * (((c.toNat : ℝ)) : EReal) = Scalar.select c a 0 := by
  by_cases h : c = 1#1
  · subst h
    rw [select_one]
    show a * (((1 : ℕ) : ℝ) : EReal) = a
    rw [Nat.cast_one, EReal.coe_one, mul_one]
  · have h0 : c = 0#1 := eq_zero_of_ne_one h
    subst h0
    rw [select_zero]
    show a * (((0 : ℕ) : ℝ) : EReal) = 0
    rw [Nat.cast_zero, EReal.coe_zero, mul_zero]

end Cert.Projector

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.LibRows.lean ====
/-
  Rows of a table taken by an index column, and a column laid along rows: read at an index.

  Taking rows of a table by a column of start indices (one collapsed, start-indexed leading axis; the remaining axes
  offset axes; the index vector on axis 1 of an [R, 1] column) reads, at (r, p, …), the table at the row the r-th
  start index names — the index read signed and clamped into the table — and at (p, …) inside it. Stated for a
  rank-3 table [N, A, B] and for a rank-2 table [N, A], generically in the sizes and the element type.

  A vector [a] viewed as a column [a, 1], and a column [a, 1] repeated along the second axis of [a, b], read at an
  index.
-/
import Idealize.ShloMosaic.PureOps
import Idealize.ShloMosaic.Lib.ValueIdx
import Idealize.ShloMosaic.Lib.Pipeline.Value

noncomputable section

namespace Cert.LibRows

open Idealize.ShloMosaic Idealize.ShloMosaic.ValueIdx

variable {α : Type}

/-- The dimension numbers of a row take from a rank-3 table [N, A, B] by an [R, 1] column of start indices. -/
abbrev rowsDims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The dimension numbers of a row take from a rank-2 table [N, A] by an [R, 1] column of start indices. -/
abbrev rowsDims2 (N A R : Nat)
    (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

section Rank3
variable {N A B R w : Nat}
  (wf : GatherDims.WF ⟨3, ![N, A, B]⟩ ⟨2, ![R, 1]⟩ ⟨3, ![R, A, B]⟩ [1, 2] [0] [] [0] [] 1 ![1, A, B])
  (idx : IVec ⟨2, ![R, 1]⟩ w) (r : Fin R) (p : Fin A) (q : Fin B)

/-- On the table's leading axis the operand index is the r-th start index, read signed and clamped. -/
theorem rows3_axis0 : ((rowsDims3 N A B R wf).operandIdx (ix3 r p q) idx 0).val
    = min (idx (ix2 r (0 : Fin 1))).toInt.toNat (N - 1) := by
  show (rowsDims3 N A B R wf).start (ix3 r p q) idx 0 + (rowsDims3 N A B R wf).batchCoord (ix3 r p q) 0
    + (rowsDims3 N A B R wf).offCoord (ix3 r p q) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 3) ∈ ([0] : List (Fin 3)) from List.mem_singleton.mpr rfl)]
  have hsi : (rowsDims3 N A B R wf).siIdx (ix3 r p q) ⟨List.idxOf (0 : Fin 3) ([0] : List (Fin 3)),
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's second axis it is the result's second coordinate. -/
theorem rows3_axis1 : ((rowsDims3 N A B R wf).operandIdx (ix3 r p q) idx 1).val = p.val := by
  show (rowsDims3 N A B R wf).start (ix3 r p q) idx 1 + (rowsDims3 N A B R wf).batchCoord (ix3 r p q) 1
    + (rowsDims3 N A B R wf).offCoord (ix3 r p q) 1 = _
  rw [GatherDims.batchCoord_eq_zero _ _ _ List.not_mem_nil, Nat.add_zero]
  unfold GatherDims.start
  rw [dif_neg (show ¬(1 : Fin 3) ∈ ([0] : List (Fin 3)) by decide), Nat.zero_add]
  unfold GatherDims.offCoord
  rw [dif_pos (show (1 : Fin 3) ∈ (Shape.kept (⟨3, ![N, A, B]⟩ : Shape) (([0] : List (Fin 3)) ++ [])) by
    simp [Shape.kept, List.mem_filter, List.mem_finRange])]
  rfl

/-- On the table's third axis it is the result's third coordinate. -/
theorem rows3_axis2 : ((rowsDims3 N A B R wf).operandIdx (ix3 r p q) idx 2).val = q.val := by
  show (rowsDims3 N A B R wf).start (ix3 r p q) idx 2 + (rowsDims3 N A B R wf).batchCoord (ix3 r p q) 2
    + (rowsDims3 N A B R wf).offCoord (ix3 r p q) 2 = _
  rw [GatherDims.batchCoord_eq_zero _ _ _ List.not_mem_nil, Nat.add_zero]
  unfold GatherDims.start
  rw [dif_neg (show ¬(2 : Fin 3) ∈ ([0] : List (Fin 3)) by decide), Nat.zero_add]
  unfold GatherDims.offCoord
  rw [dif_pos (show (2 : Fin 3) ∈ (Shape.kept (⟨3, ![N, A, B]⟩ : Shape) (([0] : List (Fin 3)) ++ [])) by
    simp [Shape.kept, List.mem_filter, List.mem_finRange])]
  rfl

/-- THE ROW TAKE OF A RANK-3 TABLE READ AT (r, p, q): the table at (the r-th start index read signed and clamped
    into [0, N − 1], p, q). -/
theorem gather_rows3_apply (hN : 0 < N) (x : (⟨3, ![N, A, B]⟩ : Shape).Idx → α) :
    Host.gather (rowsDims3 N A B R wf) x idx (ix3 r p q)
      = x (ix3 ⟨min (idx (ix2 r (0 : Fin 1))).toInt.toNat (N - 1), by omega⟩ p q) := by
  unfold Host.gather
  congr 1
  funext a
  refine Fin.ext ?_
  match a with
  | ⟨0, _⟩ => exact rows3_axis0 wf idx r p q
  | ⟨1, _⟩ => exact rows3_axis1 wf idx r p q
  | ⟨2, _⟩ => exact rows3_axis2 wf idx r p q

end Rank3

section Rank2
variable {N A R w : Nat}
  (wf : GatherDims.WF ⟨2, ![N, A]⟩ ⟨2, ![R, 1]⟩ ⟨2, ![R, A]⟩ [1] [0] [] [0] [] 1 ![1, A])
  (idx : IVec ⟨2, ![R, 1]⟩ w) (r : Fin R) (p : Fin A)

/-- On the table's leading axis the operand index is the r-th start index, read signed and clamped. -/
theorem rows2_axis0 : ((rowsDims2 N A R wf).operandIdx (ix2 r p) idx 0).val
    = min (idx (ix2 r (0 : Fin 1))).toInt.toNat (N - 1) := by
  show (rowsDims2 N A R wf).start (ix2 r p) idx 0 + (rowsDims2 N A R wf).batchCoord (ix2 r p) 0
    + (rowsDims2 N A R wf).offCoord (ix2 r p) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ ([0] : List (Fin 2)) from List.mem_singleton.mpr rfl)]
  have hsi : (rowsDims2 N A R wf).siIdx (ix2 r p) ⟨List.idxOf (0 : Fin 2) ([0] : List (Fin 2)),
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's second axis it is the result's second coordinate. -/
theorem rows2_axis1 : ((rowsDims2 N A R wf).operandIdx (ix2 r p) idx 1).val = p.val := by
  show (rowsDims2 N A R wf).start (ix2 r p) idx 1 + (rowsDims2 N A R wf).batchCoord (ix2 r p) 1
    + (rowsDims2 N A R wf).offCoord (ix2 r p) 1 = _
  rw [GatherDims.batchCoord_eq_zero _ _ _ List.not_mem_nil, Nat.add_zero]
  unfold GatherDims.start
  rw [dif_neg (show ¬(1 : Fin 2) ∈ ([0] : List (Fin 2)) by decide), Nat.zero_add]
  unfold GatherDims.offCoord
  rw [dif_pos (show (1 : Fin 2) ∈ (Shape.kept (⟨2, ![N, A]⟩ : Shape) (([0] : List (Fin 2)) ++ [])) by
    simp [Shape.kept, List.mem_filter, List.mem_finRange])]
  rfl

/-- THE ROW TAKE OF A RANK-2 TABLE READ AT (r, p): the table at (the r-th start index read signed and clamped into
    [0, N − 1], p). -/
theorem gather_rows2_apply (hN : 0 < N) (x : (⟨2, ![N, A]⟩ : Shape).Idx → α) :
    Host.gather (rowsDims2 N A R wf) x idx (ix2 r p)
      = x (ix2 ⟨min (idx (ix2 r (0 : Fin 1))).toInt.toNat (N - 1), by omega⟩ p) := by
  unfold Host.gather
  congr 1
  funext a
  refine Fin.ext ?_
  match a with
  | ⟨0, _⟩ => exact rows2_axis0 wf idx r p
  | ⟨1, _⟩ => exact rows2_axis1 wf idx r p

end Rank2

/-- A vector [a] viewed as a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along the second axis of [a, b] reads, at (p, c), the column at (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibRows

end
-- ==== Proof.KernelValue.lean ====
/-
  What the kernel leaves in its result array: the projector.

  At grid point t the body loads row σ of the weight and bias tables, where σ is word t of the session table, and
  the whole block t of x; it stores, over its whole output block, the product of the weight row block by the x
  block, plus the bias row along each row, selected against zero where the time step is not below word t of the
  length table. So the block written back at point t is the projector read through block t of the result, and the
  64 blocks tile the result array.
-/
import proofs.«417523_j47356309406352_1_alg».proof.Defs
import proofs.«417523_j47356309406352_1_alg».proof.Proof.Gen.KernelIdeal.Frame
import proofs.«417523_j47356309406352_1_alg».proof.Proof.SessionHypsIdeal
import proofs.«417523_j47356309406352_1_alg».proof.Proof.Spec
import proofs.«417523_j47356309406352_1_alg».proof.Proof.LibDot
import proofs.«417523_j47356309406352_1_alg».proof.Proof.LibRows
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

open scoped BigOperators

namespace Cert.KernelIdeal.KernelValue

open Cert.KernelIdeal Cert.KernelIdeal.Gen
open Idealize.ShloMosaic Idealize.ShloMosaic.TcCoe Idealize.SL.Sem Idealize.ShloMosaic.ValueIdx
open Idealize.ShloMosaic.Pipeline (Dat)
open Cert.Projector

theorem hz3 : (![0, 0, 0] : Fin 3 → Nat) = fun _ => 0 := funext fun a => by fin_cases a <;> rfl

section Piece
variable {F : FTy → Type} [FloatOps F]

/-- The word of the session table the body reads at grid coordinates i. -/
abbrev sessAt (c : Dev nD) (i : grid0.Coords) (xt0 : TbBuf0 (F := F) c tbM0_0) : BitVec 32 :=
  tbM0_0.view.readAt (Elt F) (Rect.unit (s := S64) (k0_off1 i) S1.size (k0_off1_inb i)).toLoadRect xt0
    (Shape.Idx.first (numel1_S1.symm ▸ Nat.one_pos))

/-- The word of the length table the body reads at grid coordinates i. -/
abbrev lenAt (c : Dev nD) (i : grid0.Coords) (xt1 : TbBuf0 (F := F) c tbM0_1) : BitVec 32 :=
  tbM0_1.view.readAt (Elt F) (Rect.unit (s := S64) (k0_off4 i) S1.size (k0_off4_inb i)).toLoadRect xt1
    (Shape.Idx.first (numel1_S1.symm ▸ Nat.one_pos))

/-- WHAT THE BODY LEAVES IN ITS OUTPUT BLOCK: its one covering store's payload, of the weight and bias rows the
    session word names, the whole x block and the length word. -/
theorem out_eq (c : Dev nD) (i : grid0.Coords) (arg3 : Memref sig .tc .vmem S1x128x4096 .f32) (harg3 : arg3.IsWhole)
    (arg4 : Memref sig .tc .vmem S8x256x128 .f32) (harg4 : arg4.IsWhole) (arg5 : Memref sig .tc .vmem S8x256 .f32)
    (harg5 : arg5.IsWhole) (arg6 : Memref sig .tc .vmem S1x256x4096 .f32) (harg6 : arg6.IsWhole)
    (x0 : Vec F S1x128x4096 .f32) (x1 : Vec F S8x256x128 .f32) (x2 : Vec F S8x256 .f32)
    (xt0 : TbBuf0 (F := F) c tbM0_0) (xt1 : TbBuf0 (F := F) c tbM0_1) (hw : k0_chk1 (sessAt c i xt0)) :
    out0_A_3 c i arg3 harg3 arg4 harg4 arg5 harg5 arg6 harg6 x0 x1 x2 xt0 xt1 hw
      = k0_pay1 (View.ld x1 (Rect.unit (s := S8x256x128) (k0_off2 (sessAt c i xt0)) S1x256x128.size
            (k0_off2_inb (sessAt c i xt0) hw)))
          (View.ld x2 (Rect.unit (s := S8x256) (k0_off3 (sessAt c i xt0)) S1x256.size (k0_off3_inb (sessAt c i xt0) hw)))
          x0 (lenAt c i xt1) := by
  unfold out0_A_3
  rw [View.read_writes_eq_canon _ _ _ (cover0_A_3 c i arg3 harg3 arg4 harg4 arg5 harg5 arg6 harg6 x0 x1 x2 xt0 xt1 hw)]
  unfold kernelRun0_A
  dsimp only
  sl_unfold_words
  rw [View.canon_unit_zero hz3]
  simp only [View.readAt_eq_ld, harg3.read_unread, harg4.read_unread, harg5.read_unread,
    View.ld_unit_zero (S := S1x128x4096) hz3]
  rfl

end Piece

/-- THE PAYLOAD AT (u, r, j), over the extended reals: the row-by-column sum over the 128 channels plus the bias of
    row r, where j is below the length word (signed), and zero elsewhere. -/
theorem pay_apply (v3 : Vec Ideal S1x256x128 .f32) (v6 : Vec Ideal S1x256 .f32) (v8 : Vec Ideal S1x128x4096 .f32)
    (v15 : BitVec 32) (u : Fin 1) (r : Fin 256) (j : Fin 4096) :
    k0_pay1 (F := Ideal) v3 v6 v8 v15 (ix3 u r j)
      = Scalar.select (IntOp.cmpi .slt (BitVec.ofNat 32 j.val) v15)
          ((∑ κ : Fin 128, v3 (ix3 (0 : Fin 1) r κ) * v8 (ix3 (0 : Fin 1) κ j)) + v6 (ix2 (0 : Fin 1) r)) 0 := by
  unfold k0_pay1
  refine (shapeCast_ab_1ab_apply _ _ u r j).trans ?_
  have hi : iota .tc S256x4096 32 [1] Facts₀.iota_S256x4096_d1_w32 (ix2 r j) = BitVec.ofNat 32 j.val :=
    iota_single_apply .tc S256x4096 32 1 Facts₀.iota_S256x4096_d1_w32 (ix2 r j)
  have hm : FloatOps.matmul (F := Ideal) (φ₁ := .f32) (φ₂ := .f32) dot_S256x128_S128x4096_S256x4096_1_0_0_1_n_n none
      (shapeCast (α := Ideal .f32) S256x128 v3 Facts₀.shapeCasts_S1x256x128_S256x128)
      (shapeCast (α := Ideal .f32) S128x4096 v8 Facts₀.shapeCasts_S1x128x4096_S128x4096)
      (constant (F := Ideal) S256x4096 .f32 0x00000000#32) (ix2 r j)
      = ∑ κ : Fin 128, v3 (ix3 (0 : Fin 1) r κ) * v8 (ix3 (0 : Fin 1) κ j) := by
    rw [Cert.LibDot.matmul_rows_apply _ rfl rfl rfl rfl rfl rfl]
    simp only [shapeCast_1ab_ab_apply, constant_apply, Ideal.ofBits_zero_f32, zero_add]
  have hb : broadcastTo S256x4096 (shapeCast S256x1 (shapeCast S256 v6 Facts₀.shapeCasts_S1x256_S256)
      Facts₀.shapeCasts_S256_S256x1) Facts₀.broadcasts_S256x1_S256x4096 (ix2 r j) = v6 (ix2 (0 : Fin 1) r) := by
    rw [Cert.LibRows.broadcastTo_a1_ab_apply, Cert.LibRows.shapeCast_a_a1_apply, shapeCast_1a_a_apply]
  rw [select_apply]
  show Scalar.select (IntOp.cmpi .slt (iota .tc S256x4096 32 [1] Facts₀.iota_S256x4096_d1_w32 (ix2 r j)) v15)
    (FloatOps.matmul (F := Ideal) (φ₁ := .f32) (φ₂ := .f32) dot_S256x128_S128x4096_S256x4096_1_0_0_1_n_n none
        (shapeCast (α := Ideal .f32) S256x128 v3 Facts₀.shapeCasts_S1x256x128_S256x128)
        (shapeCast (α := Ideal .f32) S128x4096 v8 Facts₀.shapeCasts_S1x128x4096_S128x4096)
        (constant (F := Ideal) S256x4096 .f32 0x00000000#32) (ix2 r j)
      + broadcastTo S256x4096 (shapeCast S256x1 (shapeCast S256 v6 Facts₀.shapeCasts_S1x256_S256)
          Facts₀.shapeCasts_S256_S256x1) Facts₀.broadcasts_S256x1_S256x4096 (ix2 r j))
    (Ideal.ofBits .f32 0x00000000#32) = _
  rw [hi, hm, hb, Ideal.ofBits_zero_f32]

end Cert.KernelIdeal.KernelValue

end
-- ==== Proof.KernelArray.lean ====
/-
  The kernel's result array is the projector of the argument arrays.

  At point t the x window's block is rows (t, ·, ·) of x, the weight and bias windows' blocks are the whole tables,
  and the two table words the body reads are word t of the session table and word t of the length table. With the
  session word below 8 the rows the body loads are the rows the projector reads, so the block written back at point t
  is the projector at (t, ·, ·): block t of the result. The 64 blocks tile the result array, so after the run it
  holds the projector everywhere.
-/
import proofs.«417523_j47356309406352_1_alg».proof.Proof.KernelValue

set_option maxRecDepth 16384

noncomputable section

open scoped BigOperators

namespace Cert.KernelIdeal.KernelArray

open Cert.KernelIdeal Cert.KernelIdeal.Gen Cert.KernelIdeal.KernelValue
open Idealize.ShloMosaic Idealize.ShloMosaic.TcCoe Idealize.SL.Sem Idealize.ShloMosaic.ValueIdx
open Idealize.ShloMosaic.Pipeline (Dat)
open Cert.Projector

/-- The row of a table a one-row load at the offsets the body computes from the word w reads, when w is below 8:
    the row w names. -/
theorem rowW_idx (w : BitVec 32) (hw : w.toNat < 8) (inb : ∀ a, (k0_off2 w) a + S1x256x128.size a ≤ S8x256x128.size a)
    (r : Fin 256) (κ : Fin 128) :
    (Rect.unit (s := S8x256x128) (k0_off2 w) S1x256x128.size inb).idx (ix3 (0 : Fin 1) r κ) = ix3 (row w) r κ := by
  funext a
  apply Fin.ext
  match a with
  | ⟨0, _⟩ => show (Scalar.indexCast w).toNat + 1 * 0 = (row w).val; rw [row_val w hw]; show w.toNat + 1 * 0 = _; omega
  | ⟨1, _⟩ => show 0 + 1 * r.val = r.val; omega
  | ⟨2, _⟩ => show 0 + 1 * κ.val = κ.val; omega

theorem rowB_idx (w : BitVec 32) (hw : w.toNat < 8) (inb : ∀ a, (k0_off3 w) a + S1x256.size a ≤ S8x256.size a)
    (r : Fin 256) :
    (Rect.unit (s := S8x256) (k0_off3 w) S1x256.size inb).idx (ix2 (0 : Fin 1) r) = ix2 (row w) r := by
  funext a
  apply Fin.ext
  match a with
  | ⟨0, _⟩ => show (Scalar.indexCast w).toNat + 1 * 0 = (row w).val; rw [row_val w hw]; show w.toNat + 1 * 0 = _; omega
  | ⟨1, _⟩ => show 0 + 1 * r.val = r.val; omega

/-- THE BLOCK THE BODY STORES AT SAMPLE n IS THE PROJECTOR AT (n, ·, ·): for the x block of sample n, the whole
    tables, and the session and length words of n, the session word below 8. -/
theorem block_apply (x : (⟨3, ![64, 128, 4096]⟩ : Shape).Idx → EReal) (W : (⟨3, ![8, 256, 128]⟩ : Shape).Idx → EReal)
    (b : (⟨2, ![8, 256]⟩ : Shape).Idx → EReal) (sess len : (⟨1, ![64]⟩ : Shape).Idx → BitVec 32) (n : Fin 64)
    (x0 : Vec Ideal S1x128x4096 .f32) (x1 : Vec Ideal S8x256x128 .f32) (x2 : Vec Ideal S8x256 .f32)
    (w lw : BitVec 32) (hw : w.toNat < 8)
    (inb2 : ∀ a, (k0_off2 w) a + S1x256x128.size a ≤ S8x256x128.size a)
    (inb3 : ∀ a, (k0_off3 w) a + S1x256.size a ≤ S8x256.size a)
    (hx0 : ∀ (κ : Fin 128) (j : Fin 4096), x0 (ix3 (0 : Fin 1) κ j) = x (ix3 n κ j)) (hx1 : x1 = W) (hx2 : x2 = b)
    (hws : w = sess (ix1 n)) (hlw : lw = len (ix1 n)) (y : (⟨3, ![1, 256, 4096]⟩ : Shape).Idx) :
    k0_pay1 (F := Ideal) (View.ld x1 (Rect.unit (s := S8x256x128) (k0_off2 w) S1x256x128.size inb2))
        (View.ld x2 (Rect.unit (s := S8x256) (k0_off3 w) S1x256.size inb3)) x0 lw y
      = proj x W b sess len (ix3 n (y 1) (y 2)) := by
  obtain ⟨u, r, j, rfl⟩ : ∃ (u : Fin 1) (r : Fin 256) (j : Fin 4096), y = ix3 u r j := ⟨y 0, y 1, y 2, eq_ix3 y⟩
  subst hx1 hx2 hws hlw
  rw [pay_apply]
  unfold proj
  show Scalar.select _ ((∑ κ : Fin 128, x1 ((Rect.unit (s := S8x256x128) (k0_off2 (sess (ix1 n))) S1x256x128.size inb2).idx
      (ix3 (0 : Fin 1) r κ)) * x0 (ix3 (0 : Fin 1) κ j))
    + x2 ((Rect.unit (s := S8x256) (k0_off3 (sess (ix1 n))) S1x256.size inb3).idx (ix2 (0 : Fin 1) r))) 0 = _
  simp only [rowW_idx _ hw, rowB_idx _ hw, hx0]

section Array
variable (m : (ℓ : Loc nD τ sig) → Buf (Elt Ideal) ℓ) (ρ : Dev nD → PrngReg)

/-- The index maps and the length table's offset, decided over the grid: the x and result windows move with the
    point along the sample axis, the table windows stay. -/
theorem idx_facts : ∀ t : Fin grid0.N,
    cc0_transform_0 (grid0.coords t) 0 = t.val ∧ cc0_transform_0 (grid0.coords t) 1 = 0
    ∧ cc0_transform_0 (grid0.coords t) 2 = 0
    ∧ cc0_transform_1 (grid0.coords t) 0 = 0 ∧ cc0_transform_1 (grid0.coords t) 1 = 0
    ∧ cc0_transform_1 (grid0.coords t) 2 = 0
    ∧ cc0_transform_2 (grid0.coords t) 0 = 0 ∧ cc0_transform_2 (grid0.coords t) 1 = 0
    ∧ cc0_transform_3 (grid0.coords t) 0 = t.val ∧ cc0_transform_3 (grid0.coords t) 1 = 0
    ∧ cc0_transform_3 (grid0.coords t) 2 = 0 := by
  decide +kernel

/-- The offset the body reads the length table at, at grid point t, is t. -/
theorem len_off (t : Fin grid0.N) : k0_off4 (grid0.coords t) 0 = t.val := by
  rw [k0_off4_eq]
  revert t
  decide +kernel

/-- A one-word load of the length table at offset k reads word k of its contents. -/
theorem len_word (c : Dev nD) (f : TbBuf0 (F := Ideal) c tbM0_1) (off : Fin 1 → Nat) (k : Fin 64) (hoff : off 0 = k.val)
    (inb : ∀ a, off a + S1.size a ≤ S64.size a) (h1 : 0 < S1.numel) :
    tbM0_1.view.readAt (Elt Ideal) (Rect.unit (s := S64) off S1.size inb).toLoadRect f (Shape.Idx.first h1) = f (ix1 k) := by
  rw [View.readAt_apply, View.read_apply]
  simp only [cast_eq]
  congr 1
  funext a
  apply Fin.ext
  fin_cases a
  show off 0 + 1 * (Shape.Idx.first h1 (0 : Fin 1)).val = k.val
  have : (Shape.Idx.first h1 (0 : Fin 1)).val = 0 := by
    have := (Shape.Idx.first h1 (0 : Fin 1)).isLt
    have e : S1.size (0 : Fin 1) = 1 := by decide
    omega
  rw [this, hoff]
  omega

/-- The x window's block at point t is rows (t, ·, ·) of x. -/
theorem xblk_apply (hO : Ok m) (c : Dev nD) (t : Fin (cfgM m hO).N) (κ : Fin 128) (j : Fin 4096) :
    iblk m hO c 0 t (ix3 (0 : Fin 1) κ j) = m ((c : Thread nD τ).loc main_arg0) (ix3 ⟨t.val, t.isLt⟩ κ j) := by
  obtain ⟨e0, e1, e2, -⟩ := idx_facts t
  show V m c main_arg0 ((((cfgM m hO).win 0).blk t).view.emb (ix3 (0 : Fin 1) κ j)) = _
  unfold V
  congr 1
  funext a
  apply Fin.ext
  match a with
  | ⟨0, _⟩ => show cc0_transform_0 (grid0.coords t) 0 * 1 + 1 * 0 = t.val; rw [e0]; omega
  | ⟨1, _⟩ => show cc0_transform_0 (grid0.coords t) 1 * 128 + 1 * κ.val = κ.val; rw [e1]; omega
  | ⟨2, _⟩ => show cc0_transform_0 (grid0.coords t) 2 * 4096 + 1 * j.val = j.val; rw [e2]; omega

/-- The weight window's block at every point is the whole weight table. -/
theorem wblk_eq (hO : Ok m) (c : Dev nD) (t : Fin (cfgM m hO).N) :
    (iblk m hO c 1 t : Vec Ideal S8x256x128 .f32) = m ((c : Thread nD τ).loc main_arg1) := by
  obtain ⟨-, -, -, e0, e1, e2, -⟩ := idx_facts t
  funext y
  unfold iblk
  rw [View.read_apply]
  show V m c main_arg1 _ = _
  unfold V
  congr 1
  funext a
  apply Fin.ext
  match a with
  | ⟨0, _⟩ => show cc0_transform_1 (grid0.coords t) 0 * 8 + 1 * _ = _; rw [e0]; omega
  | ⟨1, _⟩ => show cc0_transform_1 (grid0.coords t) 1 * 256 + 1 * _ = _; rw [e1]; omega
  | ⟨2, _⟩ => show cc0_transform_1 (grid0.coords t) 2 * 128 + 1 * _ = _; rw [e2]; omega

/-- The bias window's block at every point is the whole bias table. -/
theorem bblk_eq (hO : Ok m) (c : Dev nD) (t : Fin (cfgM m hO).N) :
    (iblk m hO c 2 t : Vec Ideal S8x256 .f32) = m ((c : Thread nD τ).loc main_arg2) := by
  obtain ⟨-, -, -, -, -, -, e0, e1, -⟩ := idx_facts t
  funext y
  unfold iblk
  rw [View.read_apply]
  show V m c main_arg2 _ = _
  unfold V
  congr 1
  funext a
  apply Fin.ext
  match a with
  | ⟨0, _⟩ => show cc0_transform_2 (grid0.coords t) 0 * 8 + 1 * _ = _; rw [e0]; omega
  | ⟨1, _⟩ => show cc0_transform_2 (grid0.coords t) 1 * 256 + 1 * _ = _; rw [e1]; omega

/-- The result array's contents on core c: the projector of the argument arrays. -/
abbrev result (c : Dev nD) : Buf (Elt Ideal) ((c : Thread nD τ).loc main_v0) :=
  proj (m ((c : Thread nD τ).loc main_arg0)) (m ((c : Thread nD τ).loc main_arg1)) (m ((c : Thread nD τ).loc main_arg2))
    (m ((c : Thread nD τ).loc main_arg3)) (m ((c : Thread nD τ).loc main_arg5))

/-- WHAT POINT t WRITES BACK is block t of the projector of the argument arrays, the session words below 8. -/
theorem flushed_eq (hO : Ok m) (hH : Hyps m hO) (c : Dev nD)
    (hσ : ∀ k, (m ((c : Thread nD τ).loc main_arg3) k).toNat < 8) (t : Fin (cfgM m hO).N) :
    (dats m hO hH 0 c).flushed 3 t = (((cfgM m hO).win 3).blk t).view.read (Elt Ideal) (result m c) := by
  obtain ⟨-, -, -, -, -, -, -, -, e0, e1, e2⟩ := idx_facts t
  have htb0 : tbl m 0 = m ((c : Thread nD τ).loc main_arg3) := (V_pre m c 0).symm
  have htb1 : tbl m 1 = m ((c : Thread nD τ).loc main_arg5) := (V_pre m c 1).symm
  have hws : sessAt c (grid0.coords t) (tbl m 0) = m ((c : Thread nD τ).loc main_arg3) (ix1 ⟨t.val, t.isLt⟩) :=
    (Cert.KernelIdeal.SessionHyps.sess_word c (tbl m 0) _ ⟨t.val, t.isLt⟩ (Cert.KernelIdeal.SessionHyps.sess_off t) _ _).trans
      (congrFun htb0 _)
  have hlw : lenAt c (grid0.coords t) (tbl m 1) = m ((c : Thread nD τ).loc main_arg5) (ix1 ⟨t.val, t.isLt⟩) :=
    (len_word c (tbl m 1) _ ⟨t.val, t.isLt⟩ (len_off t) _ _).trans (congrFun htb1 _)
  show ((cfgM m hO).win 3).cut (grid0.coords t) ((dats m hO hH 0 c).after 3 t) = _
  rw [after0_3]
  unfold outsAt0
  funext y
  refine (congrFun (out_eq (F := Ideal) c (grid0.coords t) (ms0_0 m hO t) (hs0_0 m hO t) (ms0_1 m hO t) (hs0_1 m hO t)
    (ms0_2 m hO t) (hs0_2 m hO t) (ms0_3 m hO t) (hs0_3 m hO t) (iblk m hO c 0 t) (iblk m hO c 1 t) (iblk m hO c 2 t)
    (tbl m 0) (tbl m 1) (Hyps.c0 hH c t)) _).trans ?_
  refine (block_apply (m ((c : Thread nD τ).loc main_arg0)) (m ((c : Thread nD τ).loc main_arg1))
    (m ((c : Thread nD τ).loc main_arg2)) (m ((c : Thread nD τ).loc main_arg3)) (m ((c : Thread nD τ).loc main_arg5))
    ⟨t.val, t.isLt⟩ (iblk m hO c 0 t) (iblk m hO c 1 t) (iblk m hO c 2 t)
    (sessAt c (grid0.coords t) (tbl m 0)) (lenAt c (grid0.coords t) (tbl m 1))
    (hws ▸ hσ _) _ _ (xblk_apply m hO c t) (wblk_eq m hO c t) (bblk_eq m hO c t) hws hlw _).trans ?_
  show result m c _ = result m c ((((cfgM m hO).win 3).blk t).view.emb y)
  congr 1
  funext a
  apply Fin.ext
  match a with
  | ⟨0, h0⟩ =>
    show t.val = cc0_transform_3 (grid0.coords t) 0 * 1 + 1 * (y ⟨0, h0⟩).val
    rw [e0]
    have hy : (y ⟨0, h0⟩).val < 1 := (y ⟨0, h0⟩).isLt
    omega
  | ⟨1, h1⟩ =>
    show (y ⟨1, h1⟩).val = cc0_transform_3 (grid0.coords t) 1 * 256 + 1 * (y ⟨1, h1⟩).val
    rw [e1]; omega
  | ⟨2, h2⟩ =>
    show (y ⟨2, h2⟩).val = cc0_transform_3 (grid0.coords t) 2 * 4096 + 1 * (y ⟨2, h2⟩).val
    rw [e2]; omega

/-- An index of the result array is in point t's block iff each coordinate is in the block's range on its axis. -/
theorem mem_blk (hO : Ok m) (t : Fin (cfgM m hO).N) (i : S64x256x4096.Idx) :
    i ∈ (((cfgM m hO).win 3).blk t).view.set ↔ ∀ a : Fin 3, cc0_transform_3 (grid0.coords t) a * S1x256x4096.size a ≤ (i a).val
      ∧ (i a).val < cc0_transform_3 (grid0.coords t) a * S1x256x4096.size a + S1x256x4096.size a := by
  exact (Finset.ext_iff.mp (View.set_slice_whole main_v0 (((cfgM m hO).win 3).rect t)) i).trans Rect.mem_set_unit

/-- The 64 blocks tile the result array: index (n, r, j) is in the block of point n. -/
theorem cover (hO : Ok m) (i : S64x256x4096.Idx) :
    ∃ t : Fin (cfgM m hO).N, ((cfgM m hO).win 3).flush t = true ∧ i ∈ (((cfgM m hO).win 3).blk t).view.set := by
  have h0 : (i 0).val < 64 := (i 0).isLt
  have h1 : (i 1).val < 256 := (i 1).isLt
  have h2 : (i 2).val < 4096 := (i 2).isLt
  refine ⟨⟨(i 0).val, h0⟩, flush0_3 (adm m hO) _, ?_⟩
  rw [mem_blk]
  obtain ⟨-, -, -, -, -, -, -, -, e0, e1, e2⟩ := idx_facts ⟨(i 0).val, h0⟩
  intro a
  match a with
  | ⟨0, _⟩ =>
    show cc0_transform_3 (grid0.coords ⟨(i 0).val, h0⟩) 0 * 1 ≤ (i 0).val
      ∧ (i 0).val < cc0_transform_3 (grid0.coords ⟨(i 0).val, h0⟩) 0 * 1 + 1
    rw [e0]; show (i 0).val * 1 ≤ (i 0).val ∧ (i 0).val < (i 0).val * 1 + 1; omega
  | ⟨1, _⟩ =>
    show cc0_transform_3 (grid0.coords ⟨(i 0).val, h0⟩) 1 * 256 ≤ (i 1).val
      ∧ (i 1).val < cc0_transform_3 (grid0.coords ⟨(i 0).val, h0⟩) 1 * 256 + 256
    rw [e1]; omega
  | ⟨2, _⟩ =>
    show cc0_transform_3 (grid0.coords ⟨(i 0).val, h0⟩) 2 * 4096 ≤ (i 2).val
      ∧ (i 2).val < cc0_transform_3 (grid0.coords ⟨(i 0).val, h0⟩) 2 * 4096 + 4096
    rw [e2]; omega

/-- THE RESULT ARRAY after the run holds the projector of the argument arrays. -/
theorem final (hO : Ok m) (hH : Hyps m hO) (c : Dev nD)
    (hσ : ∀ k, (m ((c : Thread nD τ).loc main_arg3) k).toNat < 8) :
    (dats m hO hH 0 c).arrAt 3 (cfgM m hO).N = result m c :=
  (dats m hO hH 0 c).arrAt_eq_of_cover 3 (result m c) (fun t _ => flushed_eq m hO hH c hσ t) (cover m hO)

/-- THE RUN, READ: every weakly fair execution ends with the result array at the projector of the argument arrays
    and the arguments unchanged. -/
theorem run (hO : Ok m) (hH : Hyps m hO)
    (hσ : ∀ (c : Dev nD) k, (m ((c : Thread nD τ).loc main_arg3) k).toNat < 8) :
    θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 3).trans (final m hO hH c (hσ c)),
      ((h c).1 0).trans (((dats m hO hH 0 c).arrAt_in 0 rfl _).trans ((A_eq m hO hH c 0).trans (V_main_arg0 m c))),
      ((h c).1 1).trans (((dats m hO hH 0 c).arrAt_in 1 rfl _).trans ((A_eq m hO hH c 1).trans (V_main_arg1 m c))),
      ((h c).1 2).trans (((dats m hO hH 0 c).arrAt_in 2 rfl _).trans ((A_eq m hO hH c 2).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩)
    (run_main m ρ hO hH)

end Array

end Cert.KernelIdeal.KernelArray

end
-- ==== Proof.RefValue.lean ====
/-
  The reference computes the projector.

  Read at (n, r, j), the reference's result is the product of two factors. The first is the batched matrix
  product's entry, Σ_κ Wg (n, r, κ) · x (n, κ, j), plus the taken bias bg (n, r), where Wg and bg are the rows of
  the session tables taken at the start index of sample n. That start index is the session word wrapped once when
  negative; a word below 8 is not negative, so it is the word itself, and the take — which clamps the index read
  signed into [0, 7] — reads the row the word names. The second factor is the time mask: the comparison j < len n
  read as the number 0 or 1. A product with that number is the selection between the first factor and zero.
-/
import proofs.«417523_j47356309406352_1_alg».proof.Proof.Gen.ReferenceIdeal.Read
import proofs.«417523_j47356309406352_1_alg».proof.Proof.Spec
import proofs.«417523_j47356309406352_1_alg».proof.Proof.LibRows

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Projector

/-- The weight take's dimension numbers are those of a row take from a rank-3 table. -/
theorem gatherW_eq : gather_S8x256x128_S64x1_S64x256x128_12_0_n_n_0_1_1256128
    = Cert.LibRows.rowsDims3 8 256 128 64 Facts₀.gather_S8x256x128_S64x1_S64x256x128_12_0_n_n_0_1_1256128_wf := rfl

/-- The bias take's dimension numbers are those of a row take from a rank-2 table. -/
theorem gatherB_eq : gather_S8x256_S64x1_S64x256_1_0_n_n_0_1_1256
    = Cert.LibRows.rowsDims2 8 256 64 Facts₀.gather_S8x256_S64x1_S64x256_1_0_n_n_0_1_1256_wf := rfl

variable {F : FTy → Type} [FloatOps F]

/-- The weight take's start index of sample n is the session word of n, when that word is below 8. -/
theorem startW (sess : IVec S64 32) (h : ∀ k, (sess k).toNat < 8) (n : Fin 64) :
    val_main_v5 (F := F) sess (ix2 n (0 : Fin 1)) = sess (ix1 n) := by
  rw [val_main_v5_apply, val_main_v4_apply, val_main_v1_apply, val_main_v0_apply, val_main_c_apply]
  have e : idx_main_v5 (ix2 n (0 : Fin 1)) = ix1 n := funext fun a => Fin.ext (by match a with | ⟨0, _⟩ => rfl)
  rw [e, not_neg _ (h _), select_zero]

/-- The bias take's start index of sample n is the session word of n, when that word is below 8. -/
theorem startB (sess : IVec S64 32) (h : ∀ k, (sess k).toNat < 8) (n : Fin 64) :
    val_main_v12 (F := F) sess (ix2 n (0 : Fin 1)) = sess (ix1 n) := by
  rw [val_main_v12_apply, val_main_v11_apply, val_main_v8_apply, val_main_v7_apply, val_main_c_1_apply]
  have e : idx_main_v12 (ix2 n (0 : Fin 1)) = ix1 n := funext fun a => Fin.ext (by match a with | ⟨0, _⟩ => rfl)
  rw [e, not_neg _ (h _), select_zero]

/-- The taken weights at (n, r, κ): the weight table at the row the session word of n names. -/
theorem takenW (W : FVec F S8x256x128 .f32) (sess : IVec S64 32) (h : ∀ k, (sess k).toNat < 8)
    (n : Fin 64) (r : Fin 256) (κ : Fin 128) :
    val_main_v6 (F := F) W sess (ix3 n r κ) = W (ix3 (row (sess (ix1 n))) r κ) := by
  unfold val_main_v6
  rw [gatherW_eq, Cert.LibRows.gather_rows3_apply _ _ _ _ _ (by decide)]
  simp only [startW sess h n]
  rfl

/-- The taken bias at (n, r): the bias table at the row the session word of n names. -/
theorem takenB (b : FVec F S8x256 .f32) (sess : IVec S64 32) (h : ∀ k, (sess k).toNat < 8)
    (n : Fin 64) (r : Fin 256) :
    val_main_v13 (F := F) b sess (ix2 n r) = b (ix2 (row (sess (ix1 n))) r) := by
  unfold val_main_v13
  rw [gatherB_eq, Cert.LibRows.gather_rows2_apply _ _ _ _ (by decide)]
  simp only [startB sess h n]
  rfl

/-- The time mask at (n, r, j): the comparison j < len n, read as 0 or 1. -/
theorem mask_apply (len : IVec S64 32) (n : Fin 64) (r : Fin 256) (j : Fin 4096) :
    val_main_v25 (F := Ideal) len (ix3 n r j)
      = (((IntOp.cmpi .slt (BitVec.ofNat 32 j.val) (len (ix1 n))).toNat : ℝ) : EReal) := by
  rw [val_main_v25_apply, val_main_v24_apply, val_main_v23_apply, val_main_v21_apply, val_main_v19_apply,
    val_main_v18_apply, val_main_v22_apply, val_main_v20_apply]
  have e : idx_main_v20 (idx_main_v22 (idx_main_v25 (ix3 n r j))) = ix1 n :=
    funext fun a => Fin.ext (by match a with | ⟨0, _⟩ => rfl)
  rw [e]
  rfl

/-- THE REFERENCE IS THE PROJECTOR, when every session word is below 8. -/
theorem ref_eq (x : FVec Ideal S64x128x4096 .f32) (W : FVec Ideal S8x256x128 .f32) (b : FVec Ideal S8x256 .f32)
    (sess len : IVec S64 32) (h : ∀ k, (sess k).toNat < 8) :
    val_main_v26 (F := Ideal) x W b sess len = proj x W b sess len := by
  funext i
  obtain ⟨n, r, j, rfl⟩ : ∃ (n : Fin 64) (r : Fin 256) (j : Fin 4096), i = ix3 n r j := ⟨i 0, i 1, i 2, eq_ix3 i⟩
  rw [val_main_v26_apply, val_main_v17_apply, val_main_v14_apply, val_main_v16_apply, val_main_v15_apply,
    mask_apply]
  have el : ∀ κ : Fin 128, lidx_main_v14 (ix3 n r j) κ = ix3 n r κ := fun κ =>
    funext fun a => Fin.ext (by match a with | ⟨0, _⟩ => rfl | ⟨1, _⟩ => rfl | ⟨2, _⟩ => rfl)
  have er : ∀ κ : Fin 128, ridx_main_v14 (ix3 n r j) κ = ix3 n κ j := fun κ =>
    funext fun a => Fin.ext (by match a with | ⟨0, _⟩ => rfl | ⟨1, _⟩ => rfl | ⟨2, _⟩ => rfl)
  have eb : idx_main_v15 (idx_main_v16 (ix3 n r j)) = ix2 n r :=
    funext fun a => Fin.ext (by match a with | ⟨0, _⟩ => rfl | ⟨1, _⟩ => rfl)
  simp only [el, er, eb, takenW W sess h, takenB b sess h, Ideal.mulf_def, Ideal.addf_def]
  exact mul_mask _ _

end Cert.ReferenceIdeal.RefValue

end
-- ==== Proof.lean ====
/-
  The session projector: the kernel against its reference.

  For each of 64 samples the kernel takes the weight and bias rows of the sample's session from the 8-row tables,
  multiplies the 256 × 128 weights by the sample's 128 × 4096 block of x, adds the bias along each row, and zeroes
  the time steps at or beyond the sample's length. The reference takes the same rows for all samples at once, forms
  the batched product, adds the bias and multiplies by the 0 / 1 time mask. Over the extended reals both are the one
  function Projector.proj of the argument arrays: a product with a 0 / 1 mask is a selection against zero, with no
  finiteness needed.

  The precondition bounds every session word in [0, 8): the range of rows of the tables both programs index. The
  kernel's body assumes it of the word it reads at each grid point (so the two kernel frames need it), and under it
  the reference's wrap of negative indices and its clamp do nothing.

  The two kernel frames and the kernel's run are the generated ones under that side condition; the reference's
  frame is its generated run with the result dropped; the idealization rewrote nothing.
-/
import proofs.«417523_j47356309406352_1_alg».proof.Defs
import proofs.«417523_j47356309406352_1_alg».proof.Proof.Gen.Kernel
import proofs.«417523_j47356309406352_1_alg».proof.Proof.Gen.Kernel.Skeleton
import proofs.«417523_j47356309406352_1_alg».proof.Proof.Gen.Kernel.Launch
import proofs.«417523_j47356309406352_1_alg».proof.Proof.Gen.Kernel.Points
import proofs.«417523_j47356309406352_1_alg».proof.Proof.Gen.Kernel.Frame
import proofs.«417523_j47356309406352_1_alg».proof.Proof.Gen.KernelIdeal
import proofs.«417523_j47356309406352_1_alg».proof.Proof.Gen.KernelIdeal.Skeleton
import proofs.«417523_j47356309406352_1_alg».proof.Proof.Gen.KernelIdeal.Launch
import proofs.«417523_j47356309406352_1_alg».proof.Proof.Gen.KernelIdeal.Points
import proofs.«417523_j47356309406352_1_alg».proof.Proof.Gen.KernelIdeal.Frame
import proofs.«417523_j47356309406352_1_alg».proof.Proof.Gen.ReferenceIdeal
import proofs.«417523_j47356309406352_1_alg».proof.Proof.Gen.ReferenceIdeal.Run
import proofs.«417523_j47356309406352_1_alg».proof.Proof.Gen.ReferenceIdeal.Read
import proofs.«417523_j47356309406352_1_alg».proof.Proof.Gen.Pre_finite_inputs
import proofs.«417523_j47356309406352_1_alg».proof.Proof.SessionHypsBits
import proofs.«417523_j47356309406352_1_alg».proof.Proof.SessionHypsIdeal
import proofs.«417523_j47356309406352_1_alg».proof.Proof.KernelArray
import proofs.«417523_j47356309406352_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame, its side conditions from the
    precondition. -/
theorem frame_k : Cert.frame_Kernel := fun m ρ h =>
  Cert.Kernel.Gen.frame m ρ (Cert.Kernel.SessionHyps.ok_of_pre m) (Cert.Kernel.SessionHyps.hyps_of_pre m h _)

/-- The idealized kernel likewise. -/
theorem frame_ki : Cert.frame_KernelIdeal := fun m ρ h =>
  Cert.KernelIdeal.Gen.frame m ρ (Cert.KernelIdeal.SessionHyps.ok_of_pre m) (Cert.KernelIdeal.SessionHyps.hyps_of_pre m h _)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the projector of the arguments in their result
    arrays: the kernel by its run read block by block, the reference by its run read index by index. -/
theorem algebraic : Cert.algebraic_KernelIdeal_ReferenceIdeal := by
  intro m ρ m' ρ' hpre hagree
  have hσ : ∀ (c : Dev Cert.KernelIdeal.nD) k,
      (m ((c : Thread Cert.KernelIdeal.nD Cert.KernelIdeal.τ).loc Cert.KernelIdeal.main_arg3) k).toNat < 8 :=
    fun c k => Cert.Projector.sess_lt _ _ _ _ _ _ (hpre c) k
  refine ⟨fun c => Cert.KernelIdeal.KernelArray.result m c,
    Cert.KernelIdeal.KernelArray.run m ρ (Cert.KernelIdeal.SessionHyps.ok_of_pre m)
      (Cert.KernelIdeal.SessionHyps.hyps_of_pre m hpre _) hσ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2.1,
    (hagree c).2.2.2.2.2]
  exact Cert.ReferenceIdeal.RefValue.ref_eq _ _ _ _ _ (hσ c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
